-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3 : Shape := ⟨2, ![128, 3]⟩
abbrev S262144x3 : Shape := ⟨2, ![262144, 3]⟩
abbrev S_ : Shape := ⟨0, ![]⟩

class Facts : Prop where
  bcast_S_S128x3 : S_.BroadcastsInDim S128x3 (![] : Fin 0 → Fin S128x3.rank)
  reducesTo_S128x3_S_d0_1 : S128x3.ReducesTo [0, 1] S_
  h_S_ : 0 < S_.numel
  bcast_S_S262144x3 : S_.BroadcastsInDim S262144x3 (![] : Fin 0 → Fin S262144x3.rank)
  reducesTo_S262144x3_S_d0_1 : S262144x3.ReducesTo [0, 1] S_

variable [Facts]

def fn {F : FTy → Type} [FloatOps F] (main_arg0 : FVec F S128x3 .f32) (main_arg1 : FVec F S262144x3 .f32) : IVec S_ 1 :=
  let main_v0 : FVec F S128x3 .f32 := Host.absf main_arg0
  let main_cst : FVec F S_ .f32 := constant S_ .f32 0x7F800000#32
  let main_v1 : FVec F S128x3 .f32 := broadcastInDim S128x3 ![] bcast_S_S128x3 main_cst
  let main_v2 : IVec S128x3 1 := cmpf .olt main_v0 main_v1
  let main_c : IVec S_ 1 := constantI S_ 1 1#1
  let main_v3 : IVec S_ 1 := (fun x v => Host.reduce IntOp.andi x v reducesTo_S128x3_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  main_v8
-- ==== Kernel.lean ====
abbrev S128x3 : Shape := ⟨2, ![128, 3]⟩
abbrev S262144x3 : Shape := ⟨2, ![262144, 3]⟩
abbrev S3x128 : Shape := ⟨2, ![3, 128]⟩
abbrev S3x262144 : Shape := ⟨2, ![3, 262144]⟩
abbrev S3x1024 : Shape := ⟨2, ![3, 1024]⟩
abbrev S3x128x1 : Shape := ⟨3, ![3, 128, 1]⟩
abbrev S3x1x1024 : Shape := ⟨3, ![3, 1, 1024]⟩
abbrev S3x128x1024 : Shape := ⟨3, ![3, 128, 1024]⟩
abbrev S128x1024 : Shape := ⟨2, ![128, 1024]⟩
abbrev S1x128x1024 : Shape := ⟨3, ![1, 128, 1024]⟩

abbrev nBuf : Space → Nat
  | .hbm => 6
  | .vmem => 5
  | .smem => 0
  | _ => 0

abbrev bufTy : (tb : Table) → Fin (tcTables nBuf tb) → BufTy
  | .hbm, ⟨0, _⟩ => ⟨S128x3, .f32⟩
  | .hbm, ⟨1, _⟩ => ⟨S262144x3, .f32⟩
  | .hbm, ⟨2, _⟩ => ⟨S3x128, .f32⟩
  | .hbm, ⟨3, _⟩ => ⟨S3x262144, .f32⟩
  | .hbm, ⟨4, _⟩ => ⟨S3x262144, .f32⟩
  | .hbm, ⟨5, _⟩ => ⟨S262144x3, .f32⟩
  | .local _ .vmem, ⟨0, _⟩ => ⟨S3x128, .f32⟩
  | .local _ .vmem, ⟨1, _⟩ => ⟨S3x1024, .f32⟩
  | .local _ .vmem, ⟨2, _⟩ => ⟨S3x1024, .f32⟩
  | .local _ .vmem, ⟨3, _⟩ => ⟨S3x1024, .f32⟩
  | .local _ .vmem, ⟨4, _⟩ => ⟨S3x1024, .f32⟩
  | _, _ => ⟨S128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x3_S3x128_1_0 : S128x3.Transposes [1, 0] S3x128
  transposes_S262144x3_S3x262144_1_0 : S262144x3.Transposes [1, 0] S3x262144
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  shapeCasts_S3x128_S3x128x1 : S3x128.ShapeCasts S3x128x1
  shapeCasts_S3x1024_S3x1x1024 : S3x1024.ShapeCasts S3x1x1024
  broadcasts_S3x128x1_S3x128x1024 : S3x128x1.Broadcasts S3x128x1024
  broadcasts_S3x1x1024_S3x128x1024 : S3x1x1024.Broadcasts S3x128x1024
  reduces_S3x128x1024_S128x1024 : S3x128x1024.Reduces [0] S128x1024
  shapeCasts_S128x1024_S1x128x1024 : S128x1024.ShapeCasts S1x128x1024
  broadcasts_S1x128x1024_S3x128x1024 : S1x128x1024.Broadcasts S3x128x1024
  reduces_S3x128x1024_S3x1024 : S3x128x1024.Reduces [1] S3x1024
  transposes_S3x262144_S262144x3_1_0 : S3x262144.Transposes [1, 0] S262144x3
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x128.size a ≤ S3x128.size a
  hwx0_0 : ∀ i : grid0.Coords, EltTy.bits .f32 = 32 ∨ (Rect.block (s := S3x128) S3x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x262144.size a
  hwx0_1 : ∀ i : grid0.Coords, EltTy.bits .f32 = 32 ∨ (Rect.block (s := S3x262144) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1024.size a ≤ S3x262144.size a
  hwx0_2 : ∀ i : grid0.Coords, EltTy.bits .f32 = 32 ∨ (Rect.block (s := S3x262144) S3x1024.size (cc0_transform_2 i) (hinb0_2 i)).WholeWords (EltTy.packing .f32)

variable [Facts₀]

abbrev win0_0 : Pipeline.Window sig grid0 :=
  Pipeline.Window.ofSpec (Memref.whole main_v0) S3x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x3 : Shape := ⟨2, ![128, 3]⟩
abbrev S262144x3 : Shape := ⟨2, ![262144, 3]⟩
abbrev S128x1x3 : Shape := ⟨3, ![128, 1, 3]⟩
abbrev S1x262144x3 : Shape := ⟨3, ![1, 262144, 3]⟩
abbrev S128x262144x3 : Shape := ⟨3, ![128, 262144, 3]⟩
abbrev S_ : Shape := ⟨0, ![]⟩
abbrev S128x262144 : Shape := ⟨2, ![128, 262144]⟩
abbrev S128x262144x1 : Shape := ⟨3, ![128, 262144, 1]⟩

abbrev nBuf : Space → Nat
  | .hbm => 25
  | .vmem => 0
  | .smem => 0
  | _ => 0

abbrev bufTy : (tb : Table) → Fin (tcTables nBuf tb) → BufTy
  | .hbm, ⟨0, _⟩ => ⟨S128x3, .f32⟩
  | .hbm, ⟨1, _⟩ => ⟨S262144x3, .f32⟩
  | .hbm, ⟨2, _⟩ => ⟨S128x1x3, .f32⟩
  | .hbm, ⟨3, _⟩ => ⟨S1x262144x3, .f32⟩
  | .hbm, ⟨4, _⟩ => ⟨S128x262144x3, .f32⟩
  | .hbm, ⟨5, _⟩ => ⟨S128x262144x3, .f32⟩
  | .hbm, ⟨6, _⟩ => ⟨S128x262144x3, .f32⟩
  | .hbm, ⟨7, _⟩ => ⟨S128x262144x3, .f32⟩
  | .hbm, ⟨8, _⟩ => ⟨S_, .f32⟩
  | .hbm, ⟨9, _⟩ => ⟨S128x262144, .f32⟩
  | .hbm, ⟨10, _⟩ => ⟨S128x262144x1, .f32⟩
  | .hbm, ⟨11, _⟩ => ⟨S_, .f32⟩
  | .hbm, ⟨12, _⟩ => ⟨S128x262144x1, .f32⟩
  | .hbm, ⟨13, _⟩ => ⟨S128x262144x1, .f32⟩
  | .hbm, ⟨14, _⟩ => ⟨S_, .f32⟩
  | .hbm, ⟨15, _⟩ => ⟨S128x262144x1, .f32⟩
  | .hbm, ⟨16, _⟩ => ⟨S128x262144x1, .f32⟩
  | .hbm, ⟨17, _⟩ => ⟨S128x262144x1, .f32⟩
  | .hbm, ⟨18, _⟩ => ⟨S_, .f32⟩
  | .hbm, ⟨19, _⟩ => ⟨S128x262144x1, .f32⟩
  | .hbm, ⟨20, _⟩ => ⟨S128x262144x1, .f32⟩
  | .hbm, ⟨21, _⟩ => ⟨S128x262144x3, .f32⟩
  | .hbm, ⟨22, _⟩ => ⟨S128x262144x3, .f32⟩
  | .hbm, ⟨23, _⟩ => ⟨S_, .f32⟩
  | .hbm, ⟨24, _⟩ => ⟨S262144x3, .f32⟩
  | _, _ => ⟨S128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S128x3_S128x1x3_0_2 : S128x3.BroadcastsInDim S128x1x3 (![0, 2] : Fin 2 → Fin S128x1x3.rank)
  bcast_S262144x3_S1x262144x3_1_2 : S262144x3.BroadcastsInDim S1x262144x3 (![1, 2] : Fin 2 → Fin S1x262144x3.rank)
  bcast_S128x1x3_S128x262144x3_0_1_2 : S128x1x3.BroadcastsInDim S128x262144x3 (![0, 1, 2] : Fin 3 → Fin S128x262144x3.rank)
  bcast_S1x262144x3_S128x262144x3_0_1_2 : S1x262144x3.BroadcastsInDim S128x262144x3 (![0, 1, 2] : Fin 3 → Fin S128x262144x3.rank)
  reducesTo_S128x262144x3_S128x262144_d2 : S128x262144x3.ReducesTo [2] S128x262144
  h_S_ : 0 < S_.numel
  bcast_S128x262144_S128x262144x1_0_1 : S128x262144.BroadcastsInDim S128x262144x1 (![0, 1] : Fin 2 → Fin S128x262144x1.rank)
  bcast_S_S128x262144x1 : S_.BroadcastsInDim S128x262144x1 (![] : Fin 0 → Fin S128x262144x1.rank)
  bcast_S128x262144x1_S128x262144x3_0_1_2 : S128x262144x1.BroadcastsInDim S128x262144x3 (![0, 1, 2] : Fin 3 → Fin S128x262144x3.rank)
  reducesTo_S128x262144x3_S262144x3_d0 : S128x262144x3.ReducesTo [0] S262144x3

variable [Facts₀]

class Facts : Prop extends Facts₀ where

variable [Facts]
-- ==== Proof.FieldSpec.lean ====
/-
  The field this certificate is about, as one function on the extended reals.

  There are 128 atoms `a n` and one query point `q`, both in three coordinates. The difference vector from the query
  to atom `n` is `a n - q`; its squared length is the sum of the three squared coordinates; the atom's Gaussian weight is
  `exp ((-1/2 · |a n - q|²) · 1) · 1` (the two factors `1` are 1/σ² at σ = 1, which both programs multiply by and
  neither folds away); and coordinate `c` of the gradient field at `q` is the sum over the atoms of the difference's
  coordinate `c` times the weight. The constants are kept as the binary32 words both programs print (`-1/2` is
  `0xBF000000`, `1` is `0x3F800000`): the same word on both sides is never evaluated.

  Nothing here depends on how the 128 × 3 and M × 3 arrays are laid out: the kernel holds both transposed and one tile
  of queries at a time, the reference holds them as given, and each side instantiates `gradAt` with its own reading of
  "coordinate c of atom n" and "coordinate c of the query".
-/
import Idealize.ShloMosaic.PureOps.Ideal
import Idealize.ShloMosaic.Lib.ValueIdx

noncomputable section

open scoped BigOperators

namespace Cert.GaussField

open Idealize.ShloMosaic Idealize.ShloMosaic.ValueIdx

/-- The factor `-1/2` of the exponent, as both programs print it. -/
abbrev negHalf : EReal := Ideal.ofBits .f32 0xBF000000#32
/-- The factor `1/σ² = 1`, as both programs print it. -/
abbrev invSigmaSq : EReal := Ideal.ofBits .f32 0x3F800000#32

/-- The squared distance from the query `q` to atom `n`: the sum over the three coordinates of the squared difference. -/
def distSq (a : Fin 128 → Fin 3 → EReal) (q : Fin 3 → EReal) (n : Fin 128) : EReal :=
  ∑ k : Fin 3, (a n k - q k) * (a n k - q k)

/-- Atom `n`'s Gaussian weight at the query `q`. -/
def weight (a : Fin 128 → Fin 3 → EReal) (q : Fin 3 → EReal) (n : Fin 128) : EReal :=
  Ideal.exp (negHalf * distSq a q n * invSigmaSq) * invSigmaSq

/-- Coordinate `c` of the field at the query `q`: the weighted sum of the atoms' difference vectors. -/
def gradAt (a : Fin 128 → Fin 3 → EReal) (q : Fin 3 → EReal) (c : Fin 3) : EReal :=
  ∑ n : Fin 128, (a n c - q c) * weight a q n

/-- The whole result, M × 3, from the arguments as given (atoms 128 × 3, queries M × 3): row `i 0` is the field at
    query `i 0`. -/
def field (a : (⟨2, ![128, 3]⟩ : Shape).Idx → EReal) (q : (⟨2, ![262144, 3]⟩ : Shape).Idx → EReal) :
    (⟨2, ![262144, 3]⟩ : Shape).Idx → EReal :=
  fun i => gradAt (fun n k => a (ix2 n k)) (fun k => q (ix2 (i 0) k)) (i 1)

/-- The same field laid out 3 × M from arrays laid out 3 × 128 and 3 × M: what the kernel's region leaves, before the
    transposition back. -/
def fieldT (a : (⟨2, ![3, 128]⟩ : Shape).Idx → EReal) (q : (⟨2, ![3, 262144]⟩ : Shape).Idx → EReal) :
    (⟨2, ![3, 262144]⟩ : Shape).Idx → EReal :=
  fun i => gradAt (fun n k => a (ix2 k n)) (fun k => q (ix2 k (i 1))) (i 0)

end Cert.GaussField

end
-- ==== Proof.RefField.lean ====
/-
  The reference computes the field.

  The reference broadcasts the atoms (128 × 3) and the queries (M × 3) to one 128 × M × 3 array of differences, sums
  the squares over the last axis, scales, exponentiates, scales again, multiplies the differences by the weights and
  sums over the atom axis. Read at an index, stage by stage: the difference at (n, m, k) is `a (n, k) - q (m, k)`; the
  squared distance at (n, m) is the host sum's initial value, zero, plus the three squares; the weight at (n, m) is
  `exp ((-1/2 · d²) · 1) · 1`; the result at (m, c) is zero plus the sum over n of difference times weight. That is
  `GaussField.field` of the two arguments, the two zeros added on the left being the only thing to remove.
-/
import proofs.«125522_j61770219651343_1_alg».proof.Proof.Gen.ReferenceIdeal.Read
import proofs.«125522_j61770219651343_1_alg».proof.Proof.FieldSpec

noncomputable section

open scoped BigOperators

namespace Cert.ReferenceIdeal.RefField

open Cert.ReferenceIdeal Cert.ReferenceIdeal.Read Idealize.ShloMosaic Idealize.ShloMosaic.ValueIdx Cert.GaussField

variable (x0 : (⟨S128x3, .f32⟩ : BufTy).Contents (Elt Ideal)) (x1 : (⟨S262144x3, .f32⟩ : BufTy).Contents (Elt Ideal))

/-- The difference array at (n, m, k): atom n's coordinate k less query m's. -/
theorem diff_apply (n : Fin 128) (mm : Fin 262144) (k : Fin 3) :
    val_main_v4 (F := Ideal) x0 x1 (ix3 n mm k) = x0 (ix2 n k) - x1 (ix2 mm k) := by
  rw [val_main_v4_apply, val_main_v2_apply, val_main_v0_apply, val_main_v3_apply, val_main_v1_apply]
  have e0 : idx_main_v0 (idx_main_v2 (ix3 n mm k)) = ix2 n k :=
    funext fun a => by match a with | ⟨0, _⟩ => rfl | ⟨1, _⟩ => rfl
  have e1 : idx_main_v1 (idx_main_v3 (ix3 n mm k)) = ix2 mm k :=
    funext fun a => by match a with | ⟨0, _⟩ => rfl | ⟨1, _⟩ => rfl
  rw [e0, e1]
  rfl

/-- The squared distance at (n, m): the three squared differences, summed from zero. -/
theorem distSq_apply (n : Fin 128) (mm : Fin 262144) :
    val_main_v6 (F := Ideal) x0 x1 (ix2 n mm)
      = distSq (fun n k => x0 (ix2 n k)) (fun k => x1 (ix2 mm k)) n := by
  rw [val_main_v6_apply, val_main_cst_apply, Ideal.ofBits_def, Ideal.ofBits_zero_f32, zero_add]
  unfold distSq
  refine Finset.sum_congr rfl fun k _ => ?_
  have e : idx_main_v6 (ix2 n mm) k = ix3 n mm k :=
    funext fun a => by match a with | ⟨0, _⟩ => rfl | ⟨1, _⟩ => rfl | ⟨2, _⟩ => rfl
  rw [e, val_main_v5_apply, diff_apply]
  rfl

/-- The weight at (n, m). -/
theorem weight_apply (n : Fin 128) (mm : Fin 262144) (z : Fin 1) :
    val_main_v14 (F := Ideal) x0 x1 (ix3 n mm z)
      = weight (fun n k => x0 (ix2 n k)) (fun k => x1 (ix2 mm k)) n := by
  rw [val_main_v14_apply, val_main_v12_apply, val_main_v11_apply, val_main_v9_apply, val_main_v7_apply,
    val_main_v8_apply, val_main_v10_apply, val_main_v13_apply, val_main_cst_0_apply, val_main_cst_1_apply,
    val_main_cst_2_apply]
  have e : idx_main_v7 (ix3 n mm z) = ix2 n mm :=
    funext fun a => by match a with | ⟨0, _⟩ => rfl | ⟨1, _⟩ => rfl
  rw [e, distSq_apply]
  rfl

/-- The reference's result is the field of its two arguments. -/
theorem result_eq : val_main_v17 (F := Ideal) x0 x1 = field x0 x1 := by
  funext i
  obtain ⟨mm, c, rfl⟩ : ∃ (mm : Fin 262144) (c : Fin 3), i = ix2 mm c := ⟨i 0, i 1, eq_ix2 i⟩
  rw [val_main_v17_apply, val_main_cst_3_apply, Ideal.ofBits_def, Ideal.ofBits_zero_f32, zero_add]
  unfold field gradAt
  refine Finset.sum_congr rfl fun n _ => ?_
  have e : idx_main_v17 (ix2 mm c) n = ix3 n mm c :=
    funext fun a => by match a with | ⟨0, _⟩ => rfl | ⟨1, _⟩ => rfl | ⟨2, _⟩ => rfl
  have e' : idx_main_v15 (ix3 n mm c) = ix3 n mm (0 : Fin 1) :=
    funext fun a => by match a with | ⟨0, _⟩ => rfl | ⟨1, _⟩ => rfl | ⟨2, _⟩ => rfl
  rw [e, val_main_v16_apply, val_main_v15_apply, e', diff_apply, weight_apply]
  rfl

end Cert.ReferenceIdeal.RefField

end
-- ==== Proof.TilePayload.lean ====
/-
  The kernel body on one tile of queries computes the field there.

  The body sees the atoms transposed, 3 × 128, and a tile of 1024 queries transposed, 3 × 1024. It forms the
  3 × 128 × 1024 array of differences `a (k, n) - q (k, j)` by adding a unit axis to each operand and broadcasting; sums
  the squares over the coordinate axis to the 128 × 1024 squared distances; scales by -1/2 and by 1, exponentiates and
  scales by 1 again for the weights; multiplies each difference by its pair's weight; and sums over the atom axis.
  Read at (k, j) that is `gradAt` of "atom n's coordinate c is `a (c, n)`" and "the query's coordinate c is `q (c, j)`":
  the two lane sums are plain sums over the reduced axis, and the unit-axis casts and broadcasts only move indices.
-/
import proofs.«125522_j61770219651343_1_alg».proof.Proof.Gen.KernelIdeal.Skeleton
import proofs.«125522_j61770219651343_1_alg».proof.Proof.FieldSpec
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.GaussField

variable (x0 : FVec Ideal S3x128 .f32) (x1 : FVec Ideal S3x1024 .f32)

/-- The differences on the tile: entry (k, n, j) is atom n's coordinate k less query j's. -/
def tileDiff : FVec Ideal S3x128x1024 .f32 :=
  subf (broadcastTo S3x128x1024 (shapeCast S3x128x1 (shapeCast S3x128 x0 shapeCasts_S3x128_S3x128) shapeCasts_S3x128_S3x128x1) broadcasts_S3x128x1_S3x128x1024)
    (broadcastTo S3x128x1024 (shapeCast S3x1x1024 (shapeCast S3x1024 x1 shapeCasts_S3x1024_S3x1024) shapeCasts_S3x1024_S3x1x1024) broadcasts_S3x1x1024_S3x128x1024)

theorem tileDiff_apply (k : Fin 3) (n : Fin 128) (j : Fin 1024) :
    tileDiff x0 x1 (ix3 k n j) = x0 (ix2 k n) - x1 (ix2 k j) := by
  unfold tileDiff
  rw [subf_apply, shapeCast_self, shapeCast_self]
  congr 1
  · refine (broadcastTo_apply _ broadcasts_S3x128x1_S3x128x1024 (ix3 k n j) (ix3 k n (0 : Fin 1)) (fun a => ?_)).trans ?_
    · match a with
      | ⟨0, _⟩ => show k.val = if (3 : Nat) = 1 then 0 else k.val; rw [if_neg (by decide)]
      | ⟨1, _⟩ => show n.val = if (128 : Nat) = 1 then 0 else n.val; rw [if_neg (by decide)]
      | ⟨2, _⟩ => show 0 = if (1 : Nat) = 1 then 0 else j.val; rw [if_pos rfl]
    · exact shapeCast_apply x0 shapeCasts_S3x128_S3x128x1 (ix3 k n (0 : Fin 1)) (ix2 k n) (by
        rw [Shape.rowMajor_val_two, Shape.rowMajor_val_three]
        show k.val * 128 + n.val = (k.val * 128 + n.val) * 1 + 0
        omega)
  · refine (broadcastTo_apply _ broadcasts_S3x1x1024_S3x128x1024 (ix3 k n j) (ix3 k (0 : Fin 1) j) (fun a => ?_)).trans ?_
    · match a with
      | ⟨0, _⟩ => show k.val = if (3 : Nat) = 1 then 0 else k.val; rw [if_neg (by decide)]
      | ⟨1, _⟩ => show 0 = if (1 : Nat) = 1 then 0 else n.val; rw [if_pos rfl]
      | ⟨2, _⟩ => show j.val = if (1024 : Nat) = 1 then 0 else j.val; rw [if_neg (by decide)]
    · exact shapeCast_apply x1 shapeCasts_S3x1024_S3x1x1024 (ix3 k (0 : Fin 1) j) (ix2 k j) (by
        rw [Shape.rowMajor_val_two, Shape.rowMajor_val_three]
        show k.val * 1024 + j.val = (k.val * 1 + 0) * 1024 + j.val
        omega)

/-- The squared distances on the tile: entry (n, j) sums the squared differences over the three coordinates. -/
def tileSumSq : FVec Ideal S128x1024 .f32 :=
  multiReduction .add [0] S128x1024 (mulf (tileDiff x0 x1) (tileDiff x0 x1)) 0x00000000#32 reduces_S3x128x1024_S128x1024 (.inl rfl) rfl

theorem tileSumSq_apply (n : Fin 128) (j : Fin 1024) :
    tileSumSq x0 x1 (ix2 n j) = distSq (fun n c => x0 (ix2 c n)) (fun c => x1 (ix2 c j)) n := by
  unfold tileSumSq
  refine (Ideal.multiReduction_add_single _ 0x00000000#32 reduces_S3x128x1024_S128x1024 (.inl rfl) rfl (ix2 n j)).trans ?_
  unfold distSq
  refine Finset.sum_congr rfl fun (k : Fin 3) _ => ?_
  have e : reduces_S3x128x1024_S128x1024.lift (ix2 n j) k = ix3 k n j :=
    funext fun a => Fin.ext (by match a with | ⟨0, _⟩ => rfl | ⟨1, _⟩ => rfl | ⟨2, _⟩ => rfl)
  rw [e, mulf_apply, tileDiff_apply]

/-- The weights on the tile: entry (n, j) is atom n's Gaussian weight at query j. -/
def tileWeight : FVec Ideal S128x1024 .f32 :=
  mulf (exp (mulf (mulf (broadcast S128x1024 (Scalar.ofBits .f32 0xBF000000#32)) (tileSumSq x0 x1))
    (broadcast S128x1024 (Scalar.ofBits .f32 0x3F800000#32)))) (broadcast S128x1024 (Scalar.ofBits .f32 0x3F800000#32))

theorem tileWeight_apply (n : Fin 128) (j : Fin 1024) :
    tileWeight x0 x1 (ix2 n j) = weight (fun n c => x0 (ix2 c n)) (fun c => x1 (ix2 c j)) n := by
  unfold weight
  rw [← tileSumSq_apply]
  rfl

/-- The body's stored value is the sum over the atom axis of differences times weights (the printed operations, with
    the three intermediate arrays named). -/
theorem pay_eq : k0_pay1 (F := Ideal) x0 x1
    = multiReduction .add [1] S3x1024 (mulf (tileDiff x0 x1)
        (broadcastTo S3x128x1024 (shapeCast S1x128x1024 (tileWeight x0 x1) shapeCasts_S128x1024_S1x128x1024) broadcasts_S1x128x1024_S3x128x1024))
        0x00000000#32 reduces_S3x128x1024_S3x1024 (.inl rfl) rfl := rfl

/-- The body's stored value at (k, j): coordinate k of the field at the tile's query j. -/
theorem pay_apply (k : Fin 3) (j : Fin 1024) :
    k0_pay1 (F := Ideal) x0 x1 (ix2 k j) = gradAt (fun n c => x0 (ix2 c n)) (fun c => x1 (ix2 c j)) k := by
  rw [pay_eq]
  refine (Ideal.multiReduction_add_single _ 0x00000000#32 reduces_S3x128x1024_S3x1024 (.inl rfl) rfl (ix2 k j)).trans ?_
  unfold gradAt
  refine Finset.sum_congr rfl fun (n : Fin 128) _ => ?_
  have e : reduces_S3x128x1024_S3x1024.lift (ix2 k j) n = ix3 k n j :=
    funext fun a => Fin.ext (by match a with | ⟨0, _⟩ => rfl | ⟨1, _⟩ => rfl | ⟨2, _⟩ => rfl)
  rw [e, mulf_apply, tileDiff_apply]
  congr 1
  refine (broadcastTo_apply _ broadcasts_S1x128x1024_S3x128x1024 (ix3 k n j) (ix3 (0 : Fin 1) n j) (fun a => ?_)).trans ?_
  · match a with
    | ⟨0, _⟩ => show 0 = if (1 : Nat) = 1 then 0 else k.val; rw [if_pos rfl]
    | ⟨1, _⟩ => show n.val = if (128 : Nat) = 1 then 0 else n.val; rw [if_neg (by decide)]
    | ⟨2, _⟩ => show j.val = if (1024 : Nat) = 1 then 0 else j.val; rw [if_neg (by decide)]
  · exact (shapeCast_ab_1ab_apply (tileWeight x0 x1) shapeCasts_S128x1024_S1x128x1024 (0 : Fin 1) n j).trans (tileWeight_apply x0 x1 n j)

end Cert.KernelIdeal.Tile

end
-- ==== Proof.KernelField.lean ====
/-
  The kernel program's result is the field of its two arguments.

  The program transposes the atoms to 3 × 128 and the queries to 3 × M, runs the kernel over 256 tiles of 1024
  queries, and transposes the 3 × M result back to M × 3.

  * At grid point `t` the atoms' window is the whole 3 × 128 array and the queries' and the result's windows are
    columns `1024 t … 1024 t + 1023` of their 3 × M arrays: a block's coordinate is block index × block size + the
    coordinate inside the block, and the block indices are `(0, 0)`, `(0, t)` and `(0, t)`, decided once over the grid.
  * So what point `t` writes back — the body's value on its two blocks (`Tile.pay_apply`) — is block `t` of ONE
    whole-array function, `fieldT` of the two transposed arrays: entry (k, j) of the tile reads atom coordinates from
    the whole atom array and query coordinates from column `1024 t + j`.
  * Column `i` of the result lies in the block of point `i / 1024`, so the blocks cover the array and it ends at
    `fieldT` everywhere.
  * A transposed array read at (k, n) is the array at (n, k): undoing the two transpositions in front and the one
    behind turns `fieldT` of the transposed arguments, transposed, into `field` of the arguments.
-/
import proofs.«125522_j61770219651343_1_alg».proof.Proof.Gen.KernelIdeal.Frame
import proofs.«125522_j61770219651343_1_alg».proof.Proof.TilePayload
import Idealize.ShloMosaic.Lib.Pipeline.Value
import Idealize.ShloMosaic.Lib.ValueLayout
import Idealize.ShloMosaic.Lib.StableHlo.Run

set_option maxRecDepth 16384

noncomputable section

namespace Cert.KernelIdeal.FieldValue

open Cert.KernelIdeal Cert.KernelIdeal.Gen Idealize.ShloMosaic Idealize.ShloMosaic.TcCoe Idealize.ShloMosaic.ValueIdx Cert.GaussField
open Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arrays the region finds -/

/-- The region finds the atoms transposed … -/
theorem atoms_T (c : Dev nD) : (V m c main_v0 : S3x128.Idx → EReal)
    = transpose S3x128 [1, 0] (m ((c : Thread nD τ).loc main_arg0)) transposes_S128x3_S3x128_1_0 := by
  show StableHlo.after hostOps0 (fun b => m (c, b)) (Proc.devRef .tc main_v0) = _
  after_results

/-- … and the queries transposed. -/
theorem queries_T (c : Dev nD) : (V m c main_v1 : S3x262144.Idx → EReal)
    = transpose S3x262144 [1, 0] (m ((c : Thread nD τ).loc main_arg1)) transposes_S262144x3_S3x262144_1_0 := by
  show StableHlo.after hostOps0 (fun b => m (c, b)) (Proc.devRef .tc main_v1) = _
  after_results

/-! ## One tile -/

theorem origin : (![0, 0] : Fin 2 → Nat) = fun _ => 0 := funext fun a => by fin_cases a <;> rfl

/-- The block indices at point `t`: the atoms' window stays at (0, 0); the queries' and the result's are at (0, t). -/
theorem block_indices : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- If the atoms' block is the whole transposed atom array, and the queries' block holds in column `y 1` what the
    transposed query array holds in column `i 1`, then the body's value at `y` is the transposed field at `i`, `i` being in
    row `y 0`. -/
theorem tile_field (x0 : FVec Ideal S3x128 .f32) (x1 : FVec Ideal S3x1024 .f32) (a0 : S3x128.Idx → EReal) (a1 : S3x262144.Idx → EReal)
    (y : S3x1024.Idx) (i : S3x262144.Idx) (h0 : x0 = a0) (h1 : ∀ k : Fin 3, x1 (ix2 k (y 1)) = a1 (ix2 k (i 1)))
    (hi : (i 0).val = (y 0).val) :
    k0_pay1 (F := Ideal) x0 x1 y = fieldT a0 a1 i := by
  obtain ⟨k, j, rfl⟩ : ∃ (k : Fin 3) (j : Fin 1024), y = ix2 k j := ⟨y 0, y 1, eq_ix2 y⟩
  rw [Tile.pay_apply]
  unfold fieldT
  have hk : i 0 = k := Fin.ext hi
  rw [hk, h0]
  exact congrArg (fun q => gradAt (fun n c => a0 (ix2 c n)) q k) (funext fun c => h1 c)

/-- What point `t` writes back is block `t` of the transposed field of the arrays the region found. -/
theorem flushed_eq (c : Dev nD) (t : Fin cfg0.N) :
    (dats m 0 c).flushed 2 t = ((cfg0.win 2).blk t).view.read (Elt Ideal) (fieldT (V m c main_v0) (V m c main_v1)) := by
  show (cfg0.win 2).cut (grid0.coords t) ((dats m 0 c).after 2 t) = _
  rw [after0_2]
  unfold out0_2
  rw [View.canon_unit_zero origin]
  simp only [View.ld_unit_zero (S := S3x128) origin, View.ld_unit_zero (S := S3x1024) origin]
  obtain ⟨e00, e01, e10, e11, e20, e21⟩ := block_indices t
  funext y
  show k0_pay1 (F := Ideal) (iblk m c 0 t) (iblk m c 1 t) y = fieldT (V m c main_v0) (V m c main_v1) (((cfg0.win 2).blk t).view.emb y)
  refine tile_field (iblk m c 0 t) (iblk m c 1 t) (V m c main_v0) (V m c main_v1) y (((cfg0.win 2).blk t).view.emb y) ?_ ?_ ?_
  · funext x
    show V m c main_v0 (((cfg0.win 0).blk t).view.emb x) = V m c main_v0 x
    refine congrArg (V m c main_v0) (funext fun a => Fin.ext ?_)
    match a with
    | ⟨0, _⟩ => show win0_0.index t (0 : Fin 2) * 3 + 1 * (x 0).val = (x 0).val; omega
    | ⟨1, _⟩ => show win0_0.index t (1 : Fin 2) * 128 + 1 * (x 1).val = (x 1).val; omega
  · intro k
    show V m c main_v1 (((cfg0.win 1).blk t).view.emb (ix2 k (y 1))) = V m c main_v1 (ix2 k ((((cfg0.win 2).blk t).view.emb y) 1))
    refine congrArg (V m c main_v1) (funext fun a => Fin.ext ?_)
    match a with
    | ⟨0, _⟩ => show win0_1.index t (0 : Fin 2) * 3 + 1 * k.val = k.val; omega
    | ⟨1, _⟩ => show win0_1.index t (1 : Fin 2) * 1024 + 1 * (y 1).val = win0_2.index t (1 : Fin 2) * 1024 + 1 * (y 1).val; omega
  · show win0_2.index t (0 : Fin 2) * 3 + 1 * (y 0).val = (y 0).val
    omega

/-! ## The tiles cover the result -/

/-- An index of the 3 × M result is in point `t`'s block iff each coordinate is in the block's range on its axis. -/
theorem mem_block (t : Fin cfg0.N) (i : S3x262144.Idx) :
    i ∈ ((cfg0.win 2).blk t).view.set ↔ ∀ a : Fin 2, win0_2.index t a * S3x1024.size a ≤ (i a).val ∧ (i a).val < win0_2.index t a * S3x1024.size a + S3x1024.size a := by
  show i ∈ ((View.whole main_v2).slice (win0_2.rect t)).set ↔ _
  rw [View.set_slice_whole, Rect.mem_set_unit]
  exact Iff.rfl

/-- Column `i 1` lies in the block of point `i 1 / 1024`. -/
theorem covered (i : S3x262144.Idx) : ∃ t : Fin cfg0.N, (cfg0.win 2).flush t = true ∧ i ∈ ((cfg0.win 2).blk t).view.set := by
  have hi0 : (i 0).val < 3 := (i 0).isLt
  have hi1 : (i 1).val < 262144 := (i 1).isLt
  have hN : cfg0.N = 256 := N_0
  have ht : (i 1).val / 1024 < cfg0.N := by rw [hN]; omega
  obtain ⟨_, _, _, _, e0, e1⟩ := block_indices ⟨(i 1).val / 1024, ht⟩
  refine ⟨⟨(i 1).val / 1024, ht⟩, flush0_2 _, ?_⟩
  rw [mem_block]
  intro a
  match a with
  | ⟨0, _⟩ =>
    show win0_2.index ⟨(i 1).val / 1024, ht⟩ (0 : Fin 2) * 3 ≤ (i 0).val ∧ (i 0).val < win0_2.index ⟨(i 1).val / 1024, ht⟩ (0 : Fin 2) * 3 + 3
    omega
  | ⟨1, _⟩ =>
    show win0_2.index ⟨(i 1).val / 1024, ht⟩ (1 : Fin 2) * 1024 ≤ (i 1).val ∧ (i 1).val < win0_2.index ⟨(i 1).val / 1024, ht⟩ (1 : Fin 2) * 1024 + 1024
    have e1' : win0_2.index ⟨(i 1).val / 1024, ht⟩ (1 : Fin 2) = (i 1).val / 1024 := e1
    omega

/-- The region leaves the 3 × M array at the transposed field of the arrays it found. -/
theorem region_result (c : Dev nD) : (dats m 0 c).arrAt 2 cfg0.N = fieldT (V m c main_v0) (V m c main_v1) :=
  (dats m 0 c).arrAt_eq_of_cover 2 (fieldT (V m c main_v0) (V m c main_v1)) (fun t _ => flushed_eq m c t) covered

/-! ## The transposition back -/

/-- After the last line the M × 3 result is the field of the arguments as launched. -/
theorem result_eq (c : Dev nD) : Pipeline.afterTail₀ cfgs (dats m) 0 (V0 m) [hostOps1] c main_v3
    = field (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = fieldT (V m c main_v0) (V m c main_v1) :=
    (Pipeline.withArrays_arr spec0 launch0.win.arr_inj c _ _ 2).trans (region_result m c)
  rw [hw]
  funext i
  obtain ⟨q, k, rfl⟩ : ∃ (q : Fin 262144) (k : Fin 3), i = ix2 q k := ⟨i 0, i 1, eq_ix2 i⟩
  refine (transpose_ix2_apply (fieldT (V m c main_v0) (V m c main_v1)) transposes_S3x262144_S262144x3_1_0 q k).trans ?_
  have ha : ∀ (n : Fin 128) (c' : Fin 3), (V m c main_v0 : S3x128.Idx → EReal) (ix2 c' n) = m ((c : Thread nD τ).loc main_arg0) (ix2 n c') :=
    fun n c' => by rw [atoms_T]; exact transpose_ix2_apply _ _ c' n
  have hq : ∀ (c' : Fin 3), (V m c main_v1 : S3x262144.Idx → EReal) (ix2 c' q) = m ((c : Thread nD τ).loc main_arg1) (ix2 q c') :=
    fun c' => by rw [queries_T]; exact transpose_ix2_apply _ _ c' q
  show gradAt (fun n c' => V m c main_v0 (ix2 c' n)) (fun c' => V m c main_v1 (ix2 c' q)) k
    = gradAt (fun n c' => m ((c : Thread nD τ).loc main_arg0) (ix2 n c')) (fun c' => m ((c : Thread nD τ).loc main_arg1) (ix2 q c')) k
  rw [show (fun n c' => V m c main_v0 (ix2 c' n)) = (fun n c' => m ((c : Thread nD τ).loc main_arg0) (ix2 n c')) from funext fun n => funext fun c' => ha n c',
    show (fun c' => V m c main_v1 (ix2 c' q)) = (fun c' => m ((c : Thread nD τ).loc main_arg1) (ix2 q c')) from funext hq]

/-! ## The run -/

/-- Every weakly fair execution of the kernel program ends with the result array at the field of the arguments and
    the arguments unchanged. -/
theorem run : θ_run defs (onTc (τ := τ) (main (F := Ideal))) ⟨m, fun _ => 0, ρ⟩ fun r => ∀ c : Dev nD,
      r.2.mem ((c.tc : Thread nD τ).loc main_v3) = field (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.FieldValue

end
-- ==== Proof.lean ====
/-
  A Gaussian gradient field: 128 atoms and M = 262144 query points in three coordinates; the result at query m is the
  sum over the atoms of the difference vector `a n - q m` weighted by `exp ((-1/2 · |a n - q m|²) · 1) · 1`.

  The reference computes it on 128 × M × 3 arrays; the kernel transposes both arguments, computes a 3 × 1024 tile of
  the 3 × M result at each of 256 grid points, and transposes back. On the extended reals the two are the same
  function of the arguments, `GaussField.field` (FieldSpec.lean), operation for operation and with the same constant
  words, so no law of arithmetic beyond `0 + x = x` is used and the finiteness of the inputs is never opened:

  * the reference's result is `field` (RefField.lean, over the generated reading of the reference stage by stage);
  * the kernel body's value on a tile is the field at the tile's queries (TilePayload.lean), the tiles cover the
    3 × M array, and the transpositions in front and behind cancel (KernelField.lean, over the generated frame run).

  The three frames are the generated frame runs (the reference's with its result dropped); the idealization rewrote
  nothing, so `preserves` is `True`.
-/
import proofs.«125522_j61770219651343_1_alg».proof.Defs
import proofs.«125522_j61770219651343_1_alg».proof.Proof.Gen.Kernel
import proofs.«125522_j61770219651343_1_alg».proof.Proof.Gen.Kernel.Skeleton
import proofs.«125522_j61770219651343_1_alg».proof.Proof.Gen.Kernel.Launch
import proofs.«125522_j61770219651343_1_alg».proof.Proof.Gen.Kernel.Points
import proofs.«125522_j61770219651343_1_alg».proof.Proof.Gen.Kernel.Frame
import proofs.«125522_j61770219651343_1_alg».proof.Proof.Gen.KernelIdeal
import proofs.«125522_j61770219651343_1_alg».proof.Proof.Gen.KernelIdeal.Skeleton
import proofs.«125522_j61770219651343_1_alg».proof.Proof.Gen.KernelIdeal.Launch
import proofs.«125522_j61770219651343_1_alg».proof.Proof.Gen.KernelIdeal.Points
import proofs.«125522_j61770219651343_1_alg».proof.Proof.Gen.KernelIdeal.Frame
import proofs.«125522_j61770219651343_1_alg».proof.Proof.Gen.ReferenceIdeal
import proofs.«125522_j61770219651343_1_alg».proof.Proof.Gen.Pre_finite_inputs
import proofs.«125522_j61770219651343_1_alg».proof.Proof.Gen.ReferenceIdeal.Run
import proofs.«125522_j61770219651343_1_alg».proof.Proof.Gen.ReferenceIdeal.Read
import proofs.«125522_j61770219651343_1_alg».proof.Proof.FieldSpec
import proofs.«125522_j61770219651343_1_alg».proof.Proof.RefField
import proofs.«125522_j61770219651343_1_alg».proof.Proof.KernelField
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `field` of their arguments, and the arguments agree. -/
theorem algebraic : Cert.algebraic_KernelIdeal_ReferenceIdeal := by
  intro m ρ m' ρ' _ hagree
  refine ⟨fun c => Cert.GaussField.field (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.FieldValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefField.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
